-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temperature" .f32 0x41649249#32 ((134217728 / 9395241 : ℝ) : EReal)
  ∧ IdealRules.named_const.Statement Cert.KernelIdeal.κ "eps_squared" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x128 : Shape := ⟨3, ![16, 4096, 128]⟩
abbrev S64x128 : Shape := ⟨2, ![64, 128]⟩
abbrev S_ : Shape := ⟨0, ![]⟩

class Facts : Prop where
  bcast_S_S16x4096x128 : S_.BroadcastsInDim S16x4096x128 (![] : Fin 0 → Fin S16x4096x128.rank)
  reducesTo_S16x4096x128_S_d0_1_2 : S16x4096x128.ReducesTo [0, 1, 2] S_
  h_S_ : 0 < S_.numel
  bcast_S_S64x128 : S_.BroadcastsInDim S64x128 (![] : Fin 0 → Fin S64x128.rank)
  reducesTo_S64x128_S_d0_1 : S64x128.ReducesTo [0, 1] S_

variable [Facts]

def fn {F : FTy → Type} [FloatOps F] (main_arg0 : FVec F S16x4096x128 .f32) (main_arg1 : FVec F S64x128 .f32) : IVec S_ 1 :=
  let main_v0 : FVec F S16x4096x128 .f32 := Host.absf main_arg0
  let main_cst : FVec F S_ .f32 := constant S_ .f32 0x7F800000#32
  let main_v1 : FVec F S16x4096x128 .f32 := broadcastInDim S16x4096x128 ![] bcast_S_S16x4096x128 main_cst
  let main_v2 : IVec S16x4096x128 1 := cmpf .olt main_v0 main_v1
  let main_c : IVec S_ 1 := constantI S_ 1 1#1
  let main_v3 : IVec S_ 1 := (fun x v => Host.reduce IntOp.andi x v reducesTo_S16x4096x128_S_d0_1_2 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  main_v8
-- ==== Kernel.lean ====
abbrev S16x4096x128 : Shape := ⟨3, ![16, 4096, 128]⟩
abbrev S64x128 : Shape := ⟨2, ![64, 128]⟩
abbrev S4x4096x128 : Shape := ⟨3, ![4, 4096, 128]⟩
abbrev S16384x128 : Shape := ⟨2, ![16384, 128]⟩
abbrev S64 : Shape := ⟨1, ![64]⟩
abbrev S64x1 : Shape := ⟨2, ![64, 1]⟩
abbrev S128x128 : Shape := ⟨2, ![128, 128]⟩
abbrev S128x64 : Shape := ⟨2, ![128, 64]⟩
abbrev S16384x64 : Shape := ⟨2, ![16384, 64]⟩
abbrev S16384 : Shape := ⟨1, ![16384]⟩
abbrev S16384x1 : Shape := ⟨2, ![16384, 1]⟩

abbrev nBuf : Space → Nat
  | .hbm => 3
  | .vmem => 5
  | .smem => 0
  | _ => 0

abbrev bufTy : (tb : Table) → Fin (tcTables nBuf tb) → BufTy
  | .hbm, ⟨0, _⟩ => ⟨S16x4096x128, .f32⟩
  | .hbm, ⟨1, _⟩ => ⟨S64x128, .f32⟩
  | .hbm, ⟨2, _⟩ => ⟨S16x4096x128, .f32⟩
  | .local _ .vmem, ⟨0, _⟩ => ⟨S4x4096x128, .f32⟩
  | .local _ .vmem, ⟨1, _⟩ => ⟨S4x4096x128, .f32⟩
  | .local _ .vmem, ⟨2, _⟩ => ⟨S64x128, .f32⟩
  | .local _ .vmem, ⟨3, _⟩ => ⟨S4x4096x128, .f32⟩
  | .local _ .vmem, ⟨4, _⟩ => ⟨S4x4096x128, .f32⟩
  | _, _ => ⟨S16x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4x4096x128_S4x4096x128_0_0_0 : ∀ a, (![0, 0, 0] : Fin 3 → Nat) a + S4x4096x128.size a ≤ S4x4096x128.size a
  h_S4x4096x128 : 0 < S4x4096x128.numel
  shapeCasts_S4x4096x128_S16384x128 : S4x4096x128.ShapeCasts S16384x128
  inb_S64x128_S64x128_0_0 : ∀ a, (![0, 0] : Fin 2 → Nat) a + S64x128.size a ≤ S64x128.size a
  h_S64x128 : 0 < S64x128.numel
  reduces_S64x128_S64 : S64x128.Reduces [1] S64
  shapeCasts_S64_S64x1 : S64.ShapeCasts S64x1
  broadcasts_S64x1_S64x128 : S64x1.Broadcasts S64x128
  transposes_S64x128_p1_0_S128x64 : S64x128.Transposes [1, 0] S128x64
  slices_S16384x128_o0_0_S16384x64 : S16384x128.Slices ![0, 0] S16384x64
  reduces_S16384x64_S16384 : S16384x64.Reduces [1] S16384
  shapeCasts_S16384_S16384x1 : S16384.ShapeCasts S16384x1
  broadcasts_S16384x1_S16384x64 : S16384x1.Broadcasts S16384x64
  shapeCasts_S16384x128_S4x4096x128 : S16384x128.ShapeCasts S4x4096x128
  dot_S16384x128_S128x128_S16384x128_1_0_0_1_n_n_wf : DotDims.WF S16384x128 S128x128 S16384x128 [1] [0] [0] [1] [] []
  dot_S16384x128_S128x64_S16384x64_1_0_0_1_n_n_wf : DotDims.WF S16384x128 S128x64 S16384x64 [1] [0] [0] [1] [] []
  dot_S16384x64_S64x128_S16384x128_1_0_0_1_n_n_wf : DotDims.WF S16384x64 S64x128 S16384x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x4096x128.size a ≤ S16x4096x128.size a
  hwx0_0 : ∀ i : grid0.Coords, EltTy.bits .f32 = 32 ∨ (Rect.block (s := S16x4096x128) S4x4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x4096x128.size a ≤ S16x4096x128.size a
  hwx0_2 : ∀ i : grid0.Coords, EltTy.bits .f32 = 32 ∨ (Rect.block (s := S16x4096x128) S4x4096x128.size (cc0_transform_2 i) (hinb0_2 i)).WholeWords (EltTy.packing .f32)

variable [Facts₀]

def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x64_S64x128_S16384x128_1_0_0_1_n_n : DotDims S16384x64 S64x128 S16384x128 where
  lhsContracting := [1]
  rhsContracting := [0]
  lhsNonContracting := [0]
  rhsNonContracting := [1]
  lhsBatch := []
  rhsBatch := []
  wf := dot_S16384x64_S64x128_S16384x128_1_0_0_1_n_n_wf

abbrev win0_0 : Pipeline.Window sig grid0 :=
  Pipeline.Window.ofSpec (Memref.whole main_arg0) S4x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x4096x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x4096x128 : Shape := ⟨3, ![16, 4096, 128]⟩
abbrev S64x128 : Shape := ⟨2, ![64, 128]⟩
abbrev S_ : Shape := ⟨0, ![]⟩
abbrev S16x4096 : Shape := ⟨2, ![16, 4096]⟩
abbrev S16x4096x1 : Shape := ⟨3, ![16, 4096, 1]⟩
abbrev S65536x128 : Shape := ⟨2, ![65536, 128]⟩
abbrev S64 : Shape := ⟨1, ![64]⟩
abbrev S64x1 : Shape := ⟨2, ![64, 1]⟩
abbrev S128x64 : Shape := ⟨2, ![128, 64]⟩
abbrev S65536x64 : Shape := ⟨2, ![65536, 64]⟩
abbrev S65536 : Shape := ⟨1, ![65536]⟩
abbrev S65536x1 : Shape := ⟨2, ![65536, 1]⟩

abbrev nBuf : Space → Nat
  | .hbm => 45
  | .vmem => 0
  | .smem => 0
  | _ => 0

abbrev bufTy : (tb : Table) → Fin (tcTables nBuf tb) → BufTy
  | .hbm, ⟨0, _⟩ => ⟨S16x4096x128, .f32⟩
  | .hbm, ⟨1, _⟩ => ⟨S64x128, .f32⟩
  | .hbm, ⟨2, _⟩ => ⟨S16x4096x128, .f32⟩
  | .hbm, ⟨3, _⟩ => ⟨S_, .f32⟩
  | .hbm, ⟨4, _⟩ => ⟨S16x4096, .f32⟩
  | .hbm, ⟨5, _⟩ => ⟨S16x4096x1, .f32⟩
  | .hbm, ⟨6, _⟩ => ⟨S16x4096x1, .f32⟩
  | .hbm, ⟨7, _⟩ => ⟨S_, .f32⟩
  | .hbm, ⟨8, _⟩ => ⟨S16x4096x1, .f32⟩
  | .hbm, ⟨9, _⟩ => ⟨S16x4096x1, .f32⟩
  | .hbm, ⟨10, _⟩ => ⟨S16x4096x128, .f32⟩
  | .hbm, ⟨11, _⟩ => ⟨S16x4096x128, .f32⟩
  | .hbm, ⟨12, _⟩ => ⟨S65536x128, .f32⟩
  | .hbm, ⟨13, _⟩ => ⟨S64x128, .f32⟩
  | .hbm, ⟨14, _⟩ => ⟨S_, .f32⟩
  | .hbm, ⟨15, _⟩ => ⟨S64, .f32⟩
  | .hbm, ⟨16, _⟩ => ⟨S64x1, .f32⟩
  | .hbm, ⟨17, _⟩ => ⟨S64x1, .f32⟩
  | .hbm, ⟨18, _⟩ => ⟨S_, .f32⟩
  | .hbm, ⟨19, _⟩ => ⟨S64x1, .f32⟩
  | .hbm, ⟨20, _⟩ => ⟨S64x1, .f32⟩
  | .hbm, ⟨21, _⟩ => ⟨S64x128, .f32⟩
  | .hbm, ⟨22, _⟩ => ⟨S64x128, .f32⟩
  | .hbm, ⟨23, _⟩ => ⟨S128x64, .f32⟩
  | .hbm, ⟨24, _⟩ => ⟨S65536x64, .f32⟩
  | .hbm, ⟨25, _⟩ => ⟨S_, .f32⟩
  | .hbm, ⟨26, _⟩ => ⟨S65536x64, .f32⟩
  | .hbm, ⟨27, _⟩ => ⟨S65536x64, .f32⟩
  | .hbm, ⟨28, _⟩ => ⟨S_, .f32⟩
  | .hbm, ⟨29, _⟩ => ⟨S65536, .f32⟩
  | .hbm, ⟨30, _⟩ => ⟨S_, .f32⟩
  | .hbm, ⟨31, _⟩ => ⟨S65536, .f32⟩
  | .hbm, ⟨32, _⟩ => ⟨S65536, .f32⟩
  | .hbm, ⟨33, _⟩ => ⟨S65536x1, .f32⟩
  | .hbm, ⟨34, _⟩ => ⟨S65536x64, .f32⟩
  | .hbm, ⟨35, _⟩ => ⟨S65536x64, .f32⟩
  | .hbm, ⟨36, _⟩ => ⟨S65536x64, .f32⟩
  | .hbm, ⟨37, _⟩ => ⟨S_, .f32⟩
  | .hbm, ⟨38, _⟩ => ⟨S65536, .f32⟩
  | .hbm, ⟨39, _⟩ => ⟨S65536x1, .f32⟩
  | .hbm, ⟨40, _⟩ => ⟨S65536x64, .f32⟩
  | .hbm, ⟨41, _⟩ => ⟨S65536x64, .f32⟩
  | .hbm, ⟨42, _⟩ => ⟨S65536x128, .f32⟩
  | .hbm, ⟨43, _⟩ => ⟨S65536x128, .f32⟩
  | .hbm, ⟨44, _⟩ => ⟨S16x4096x128, .f32⟩
  | _, _ => ⟨S16x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]

class Facts₀ : Prop where
  reducesTo_S16x4096x128_S16x4096_d2 : S16x4096x128.ReducesTo [2] S16x4096
  h_S_ : 0 < S_.numel
  bcast_S16x4096_S16x4096x1_0_1 : S16x4096.BroadcastsInDim S16x4096x1 (![0, 1] : Fin 2 → Fin S16x4096x1.rank)
  bcast_S_S16x4096x1 : S_.BroadcastsInDim S16x4096x1 (![] : Fin 0 → Fin S16x4096x1.rank)
  bcast_S16x4096x1_S16x4096x128_0_1_2 : S16x4096x1.BroadcastsInDim S16x4096x128 (![0, 1, 2] : Fin 3 → Fin S16x4096x128.rank)
  shapeCasts_S16x4096x128_S65536x128 : S16x4096x128.ShapeCasts S65536x128
  reducesTo_S64x128_S64_d1 : S64x128.ReducesTo [1] S64
  bcast_S64_S64x1_0 : S64.BroadcastsInDim S64x1 (![0] : Fin 1 → Fin S64x1.rank)
  bcast_S_S64x1 : S_.BroadcastsInDim S64x1 (![] : Fin 0 → Fin S64x1.rank)
  bcast_S64x1_S64x128_0_1 : S64x1.BroadcastsInDim S64x128 (![0, 1] : Fin 2 → Fin S64x128.rank)
  transposes_S64x128_S128x64_1_0 : S64x128.Transposes [1, 0] S128x64
  bcast_S_S65536x64 : S_.BroadcastsInDim S65536x64 (![] : Fin 0 → Fin S65536x64.rank)
  reducesTo_S65536x64_S65536_d1 : S65536x64.ReducesTo [1] S65536
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x64_0_1 : S65536x1.BroadcastsInDim S65536x64 (![0, 1] : Fin 2 → Fin S65536x64.rank)
  shapeCasts_S65536x128_S16x4096x128 : S65536x128.ShapeCasts S16x4096x128
  dot_S65536x128_S128x64_S65536x64_1_0_0_1_n_n_wf : DotDims.WF S65536x128 S128x64 S65536x64 [1] [0] [0] [1] [] []
  dot_S65536x64_S64x128_S65536x128_1_0_0_1_n_n_wf : DotDims.WF S65536x64 S64x128 S65536x128 [1] [0] [0] [1] [] []

variable [Facts₀]

def dot_S65536x128_S128x64_S65536x64_1_0_0_1_n_n : DotDims S65536x128 S128x64 S65536x64 where
  lhsContracting := [1]
  rhsContracting := [0]
  lhsNonContracting := [0]
  rhsNonContracting := [1]
  lhsBatch := []
  rhsBatch := []
  wf := dot_S65536x128_S128x64_S65536x64_1_0_0_1_n_n_wf
def dot_S65536x64_S64x128_S65536x128_1_0_0_1_n_n : DotDims S65536x64 S64x128 S65536x128 where
  lhsContracting := [1]
  rhsContracting := [0]
  lhsNonContracting := [0]
  rhsNonContracting := [1]
  lhsBatch := []
  rhsBatch := []
  wf := dot_S65536x64_S64x128_S65536x128_1_0_0_1_n_n_wf

class Facts : Prop extends Facts₀ where

variable [Facts]
-- ==== Proof.Consts.lean ====
/-
  The float words both programs spell, as the extended reals they denote.

  ε = 0x2B8CBCCC is 2305843 / 2^61 (the f32 nearest 1e-12): the floor under a row's norm, in the reference's
  normalisation of the features and in both programs' normalisation of the bank. The temperature 0x3D8F5C29 is
  9395241 / 2^27 (the f32 nearest 0.07), by which the reference divides the similarities. Both are positive reals.
-/
import Idealize.ShloMosaic.PureOps.Ideal

noncomputable section

namespace Cert.Consts

open Idealize.ShloMosaic

/-- ε as a real. -/
def epsR : ℝ := 2305843 / 2305843009213693952
/-- The temperature as a real. -/
def tempR : ℝ := 9395241 / 134217728

theorem epsR_pos : 0 < epsR := by unfold epsR; norm_num
theorem tempR_pos : 0 < tempR := by unfold tempR; norm_num

/-- The word of ε denotes `epsR`. -/
theorem ofBits_eps : Ideal.ofBits .f32 0x2B8CBCCC#32 = ((epsR : ℝ) : EReal) := by
  simp [Ideal.ofBits, Ideal.ieee, epsR, -EReal.coe_mul]; norm_num

/-- The word of the temperature denotes `tempR`. -/
theorem ofBits_temp : Ideal.ofBits .f32 0x3D8F5C29#32 = ((tempR : ℝ) : EReal) := by
  simp [Ideal.ofBits, Ideal.ieee, tempR, -EReal.coe_mul]; norm_num

/-- `1.0` denotes `1`. -/
theorem ofBits_one : Ideal.ofBits .f32 0x3F800000#32 = ((1 : ℝ) : EReal) := by
  simp [Ideal.ofBits, Ideal.ieee, -EReal.coe_mul]; norm_num

/-- `+0.0` denotes `0`. -/
theorem ofBits_zero : Ideal.ofBits .f32 0x00000000#32 = 0 := by
  simp [Ideal.ofBits, Ideal.ieee]

/-- The pattern of `-inf` denotes `⊥`. -/
theorem ofBits_neg_inf : Ideal.ofBits .f32 0xFF800000#32 = ⊥ := by
  simp [Ideal.ofBits, Ideal.ieee]

/-- The pattern of `+inf` denotes `⊤`. -/
theorem ofBits_pos_inf : Ideal.ofBits .f32 0x7F800000#32 = ⊤ := by
  simp [Ideal.ofBits, Ideal.ieee]

/-- The kernel's folded `ε · ε`, named the exact square of ε: its value in the certificate's table. -/
theorem eps_sq : ((5316911940649 / 5316911983139663491615228241121378304 : ℝ) : EReal) = ((epsR * epsR : ℝ) : EReal) := by
  congr 1; unfold epsR; norm_num

/-- The kernel's folded reciprocal of the temperature, named its exact reciprocal. -/
theorem inv_temp : ((134217728 / 9395241 : ℝ) : EReal) = ((1 / tempR : ℝ) : EReal) := by
  congr 1; unfold tempR; norm_num

end Cert.Consts

end
-- ==== Proof.Rows.lean ====
/-
  One token's row, as each program computes it, and why the two are one function on finite inputs.

  Write x for a token's 128 features and B for the 64 × 128 bank, ε for the norm floor and T for the temperature.
  Both programs first normalise the bank's rows: b_j = B_j / max(‖B_j‖, ε).

  The reference: f = x / max(‖x‖, ε); s_j = (f · b_j) / T; with M the largest s_j it returns
      f_d + ∑_j exp(s_j − M) / (∑_j' exp(s_j' − M)) · b_{j,d}.
  The kernel: r = rsqrt(max(∑_k x_k², ε²)); s'_j = (∑_k x_k · (b_{j,k} · (1/T))) · r; it returns
      x_d · r + ∑_j exp(s'_j) / (∑_j' exp(s'_j')) · b_{j,d}.

  On real inputs r = 1 / max(‖x‖, ε), because the square root is monotone and √(ε²) = ε; so x_d · r = f_d and
  s'_j = s_j (a finite sum of reals distributes); and a softmax does not change when every score is shifted by the same
  real M. Every intermediate value is then a real, so the extended-real operations are the real ones throughout.
-/
import proofs.«150172_g85598698209303_cont_9to1_m_192_22_alg».proof.Proof.Consts
import Idealize.ShloMosaic.PureOps.Ideal

noncomputable section

namespace Cert.Rows

open Idealize.ShloMosaic Cert.Consts

/-! ## The extended reals' operations on reals -/

theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem sqrt_coe {r : ℝ} (h : 0 ≤ r) : Ideal.sqrt (r : EReal) = ((Real.sqrt r : ℝ) : EReal) := by
  rw [Ideal.sqrt_coe, if_neg (not_lt.mpr h)]

theorem max_coe (a b : ℝ) : max (a : EReal) (b : EReal) = ((max a b : ℝ) : EReal) :=
  (EReal.coe_strictMono.monotone.map_max).symm

theorem div_coe_coe (a : ℝ) {b : ℝ} (h : b ≠ 0) : Ideal.div (a : EReal) (b : EReal) = ((a / b : ℝ) : EReal) := by
  rw [Ideal.div_coe h, ← EReal.coe_mul]
  congr 1
  rw [mul_one_div]

theorem rsqrt_coe_pos {r : ℝ} (h : 0 < r) : Ideal.rsqrt (r : EReal) = (((Real.sqrt r)⁻¹ : ℝ) : EReal) := by
  rw [Ideal.rsqrt_coe, if_neg (not_lt.mpr h.le), if_neg h.ne']

theorem exp_coe (r : ℝ) : Ideal.exp (r : EReal) = ((Real.exp r : ℝ) : EReal) := Ideal.exp_coe r

/-- The largest of finitely many reals, taken in the extended reals from −∞, is a real. -/
theorem fold_max_coe (f : Fin 64 → ℝ) :
    ∃ r : ℝ, max (⊥ : EReal) (Finset.univ.fold max (⊥ : EReal) (fun j => ((f j : ℝ) : EReal))) = (r : EReal) := by
  set M : EReal := Finset.univ.fold max (⊥ : EReal) (fun j => ((f j : ℝ) : EReal)) with hM
  have hne : (Finset.univ : Finset (Fin 64)).Nonempty := ⟨0, Finset.mem_univ _⟩
  have hle : M ≤ ((Finset.univ.sup' hne f : ℝ) : EReal) := by
    rw [hM, Finset.fold_max_le]
    exact ⟨bot_le, fun j hj => EReal.coe_le_coe_iff.mpr (Finset.le_sup' f hj)⟩
  have hge : ((f 0 : ℝ) : EReal) ≤ M := by
    rw [hM, Finset.le_fold_max]
    exact Or.inr ⟨0, Finset.mem_univ _, le_rfl⟩
  have htop : M ≠ ⊤ := ne_top_of_le_ne_top (EReal.coe_ne_top _) hle
  have hbot : M ≠ ⊥ := ne_bot_of_le_ne_bot (EReal.coe_ne_bot _) hge
  exact ⟨M.toReal, by rw [max_eq_right bot_le, EReal.coe_toReal htop hbot]⟩

/-! ## Real algebra -/

/-- A softmax is unchanged by a common shift of its scores. -/
theorem softmax_shift (s : Fin 64 → ℝ) (M : ℝ) (j : Fin 64) :
    Real.exp (s j - M) / ∑ j', Real.exp (s j' - M) = Real.exp (s j) / ∑ j', Real.exp (s j') := by
  simp only [Real.exp_sub]
  rw [← Finset.sum_div]
  exact div_div_div_cancel_right₀ (Real.exp_ne_zero M) _ _

theorem sum_exp_pos (s : Fin 64 → ℝ) : 0 < ∑ j, Real.exp (s j) :=
  Finset.sum_pos (fun j _ => Real.exp_pos _) ⟨0, Finset.mem_univ _⟩

/-! ## The rows over the reals -/

section Reals
variable (xr : Fin 128 → ℝ) (mr : Fin 64 → Fin 128 → ℝ)

/-- The bank's row `j`, normalised: b_j = B_j / max(‖B_j‖, ε). -/
def bankR (j : Fin 64) (k : Fin 128) : ℝ := mr j k / max (Real.sqrt (∑ k', mr j k' * mr j k')) epsR
/-- max(‖x‖, ε). -/
def normR : ℝ := max (Real.sqrt (∑ k, xr k * xr k)) epsR
/-- The similarity scores s_j = ((x / max(‖x‖, ε)) · b_j) / T. -/
def simR (j : Fin 64) : ℝ := (∑ k, xr k / normR xr * bankR mr j k) / tempR
/-- The row both programs return. -/
def outR (d : Fin 128) : ℝ :=
  xr d / normR xr + ∑ j, Real.exp (simR xr mr j) / (∑ j', Real.exp (simR xr mr j')) * bankR mr j d

theorem normR_pos : 0 < normR xr := lt_max_of_lt_right epsR_pos

theorem sum_sq_nonneg {n : ℕ} (f : Fin n → ℝ) : 0 ≤ ∑ k, f k * f k :=
  Finset.sum_nonneg fun k _ => mul_self_nonneg (f k)

/-- The kernel's reciprocal norm: 1 / √(max(∑ x², ε²)) is 1 / max(‖x‖, ε). -/
theorem inv_sqrt_max : (Real.sqrt (max (∑ k, xr k * xr k * 1) (epsR * epsR)))⁻¹ = (normR xr)⁻¹ := by
  unfold normR
  rw [Real.sqrt_monotone.map_max, Real.sqrt_mul_self epsR_pos.le]
  simp only [mul_one]

/-- The kernel's scores are the reference's: the temperature's reciprocal and the norm's move across the sum. -/
theorem kernel_sim (j : Fin 64) :
    (∑ k, xr k * (bankR mr j k * (1 / tempR))) * (normR xr)⁻¹ = simR xr mr j := by
  unfold simR
  rw [Finset.sum_mul, Finset.sum_div]
  refine Finset.sum_congr rfl fun k _ => ?_
  simp only [div_eq_mul_inv, one_mul]
  ring

end Reals

/-! ## The rows as the programs compute them, over the extended reals -/

section Rows
variable (x : Fin 128 → EReal) (mb : Fin 64 → Fin 128 → EReal)

/-- The bank's row `j`, normalised, as both programs compute it. -/
def bankN (j : Fin 64) (k : Fin 128) : EReal :=
  Ideal.div (mb j k) (max (Ideal.sqrt (∑ k', mb j k' * mb j k')) (Ideal.ofBits .f32 0x2B8CBCCC#32))

/-- The kernel's reciprocal norm, `e2` its folded ε². The sum of squares comes out of a product with an all-ones matrix. -/
def kerInv (e2 : EReal) : EReal :=
  Ideal.rsqrt (max (∑ k, x k * x k * Ideal.ofBits .f32 0x3F800000#32) e2)
/-- The kernel's scores, `c` its folded 1/T. -/
def kerSim (c e2 : EReal) (j : Fin 64) : EReal := (∑ k, x k * (bankN mb j k * c)) * kerInv x e2
/-- The kernel's row. -/
def kerRow (c e2 : EReal) (d : Fin 128) : EReal :=
  x d * kerInv x e2
    + ∑ j, Ideal.div (Ideal.exp (kerSim x mb c e2 j)) (∑ j', Ideal.exp (kerSim x mb c e2 j')) * bankN mb j d

/-- The reference's normalised features. -/
def refFeat (k : Fin 128) : EReal :=
  Ideal.div (x k) (max (Ideal.sqrt (∑ k', x k' * x k')) (Ideal.ofBits .f32 0x2B8CBCCC#32))
/-- The reference's scores. -/
def refSim (j : Fin 64) : EReal := Ideal.div (∑ k, refFeat x k * bankN mb j k) (Ideal.ofBits .f32 0x3D8F5C29#32)
/-- The reference's softmax shift: the largest score, taken from −∞. -/
def refMax : EReal := max ⊥ (Finset.univ.fold max (⊥ : EReal) (refSim x mb))
/-- The reference's row. -/
def refRow (d : Fin 128) : EReal :=
  refFeat x d
    + ∑ j, Ideal.div (Ideal.exp (refSim x mb j - refMax x mb)) (∑ j', Ideal.exp (refSim x mb j' - refMax x mb)) * bankN mb j d

end Rows

/-! ## On real inputs both are `outR` -/

section Coe
variable (xr : Fin 128 → ℝ) (mr : Fin 64 → Fin 128 → ℝ)

theorem bankN_coe : bankN (fun j k => ((mr j k : ℝ) : EReal)) = fun j k => ((bankR mr j k : ℝ) : EReal) := by
  funext j k
  unfold bankN bankR
  simp only [← EReal.coe_mul, coe_sum]
  rw [sqrt_coe (sum_sq_nonneg _), ofBits_eps, max_coe, div_coe_coe _ (lt_max_of_lt_right epsR_pos).ne']

theorem kerInv_coe :
    kerInv (fun k => ((xr k : ℝ) : EReal)) ((5316911940649 / 5316911983139663491615228241121378304 : ℝ) : EReal)
      = (((normR xr)⁻¹ : ℝ) : EReal) := by
  unfold kerInv
  rw [eps_sq, ofBits_one]
  simp only [← EReal.coe_mul, coe_sum]
  rw [max_coe, rsqrt_coe_pos (lt_max_of_lt_right (mul_pos epsR_pos epsR_pos)), inv_sqrt_max]

theorem kerSim_coe :
    kerSim (fun k => ((xr k : ℝ) : EReal)) (fun j k => ((mr j k : ℝ) : EReal)) ((134217728 / 9395241 : ℝ) : EReal)
        ((5316911940649 / 5316911983139663491615228241121378304 : ℝ) : EReal)
      = fun j => ((simR xr mr j : ℝ) : EReal) := by
  funext j
  unfold kerSim
  rw [kerInv_coe, bankN_coe, inv_temp]
  simp only [← EReal.coe_mul, coe_sum]
  rw [kernel_sim]

theorem kerRow_coe (d : Fin 128) :
    kerRow (fun k => ((xr k : ℝ) : EReal)) (fun j k => ((mr j k : ℝ) : EReal)) ((134217728 / 9395241 : ℝ) : EReal)
        ((5316911940649 / 5316911983139663491615228241121378304 : ℝ) : EReal) d
      = ((outR xr mr d : ℝ) : EReal) := by
  unfold kerRow
  rw [kerSim_coe, kerInv_coe, bankN_coe]
  simp only [exp_coe, coe_sum]
  simp only [div_coe_coe _ (sum_exp_pos (simR xr mr)).ne', ← EReal.coe_mul, coe_sum, ← EReal.coe_add]
  rw [← div_eq_mul_inv]
  rfl

theorem refFeat_coe : refFeat (fun k => ((xr k : ℝ) : EReal)) = fun k => ((xr k / normR xr : ℝ) : EReal) := by
  funext k
  unfold refFeat
  simp only [← EReal.coe_mul, coe_sum]
  rw [sqrt_coe (sum_sq_nonneg _), ofBits_eps, max_coe, div_coe_coe _ (lt_max_of_lt_right epsR_pos).ne']
  rfl

theorem refSim_coe :
    refSim (fun k => ((xr k : ℝ) : EReal)) (fun j k => ((mr j k : ℝ) : EReal)) = fun j => ((simR xr mr j : ℝ) : EReal) := by
  funext j
  unfold refSim
  rw [refFeat_coe, bankN_coe, ofBits_temp]
  simp only [← EReal.coe_mul, coe_sum]
  rw [div_coe_coe _ tempR_pos.ne']
  rfl

theorem refRow_coe (d : Fin 128) :
    refRow (fun k => ((xr k : ℝ) : EReal)) (fun j k => ((mr j k : ℝ) : EReal)) d = ((outR xr mr d : ℝ) : EReal) := by
  unfold refRow refMax
  rw [refSim_coe, refFeat_coe, bankN_coe]
  obtain ⟨M, hM⟩ := fold_max_coe (simR xr mr)
  rw [hM]
  simp only [← EReal.coe_sub, exp_coe, coe_sum]
  simp only [div_coe_coe _ (sum_exp_pos fun j => simR xr mr j - M).ne', softmax_shift, ← EReal.coe_mul, coe_sum,
    ← EReal.coe_add]
  rfl

end Coe

/-- THE ROW LAW: on finite features and a finite bank the kernel's row, its two folded literals read as ε² and 1/T,
    is the reference's row. -/
theorem kerRow_eq_refRow (x : Fin 128 → EReal) (mb : Fin 64 → Fin 128 → EReal)
    (hx : ∀ k, x k ≠ ⊤ ∧ x k ≠ ⊥) (hmb : ∀ j k, mb j k ≠ ⊤ ∧ mb j k ≠ ⊥) (d : Fin 128) :
    kerRow x mb ((134217728 / 9395241 : ℝ) : EReal)
        ((5316911940649 / 5316911983139663491615228241121378304 : ℝ) : EReal) d = refRow x mb d := by
  have ex : x = fun k => (((x k).toReal : ℝ) : EReal) :=
    funext fun k => (EReal.coe_toReal (hx k).1 (hx k).2).symm
  have em : mb = fun j k => (((mb j k).toReal : ℝ) : EReal) :=
    funext fun j => funext fun k => (EReal.coe_toReal (hmb j k).1 (hmb j k).2).symm
  rw [ex, em, kerRow_coe, refRow_coe]

end Cert.Rows

end
-- ==== Proof.RefRead.lean ====
/-
  The reference's result read at one array index: token (b, s), feature d.

  The reference flattens the tokens to 65536 rows, row r = b · 4096 + s. Read one stage at a time, its result at
  (b, s, d) is the reference's row function (Rows.lean) of token (b, s)'s 128 features and the bank, at d.
-/
import proofs.«150172_g85598698209303_cont_9to1_m_192_22_alg».proof.Proof.Gen.ReferenceIdeal.Read
import proofs.«150172_g85598698209303_cont_9to1_m_192_22_alg».proof.Proof.Rows

noncomputable section

namespace Cert.RefRead

open Cert.ReferenceIdeal Cert.ReferenceIdeal.Read Idealize.ShloMosaic Idealize.ShloMosaic.ValueIdx Cert.Rows

/-- The bank by its two coordinates. -/
def bankOf (x1 : S64x128.Idx → EReal) : Fin 64 → Fin 128 → EReal := fun j k => x1 (ix2 j k)

/-- Row `r` of the features flattened to 65536 rows: token (r / 4096, r % 4096). -/
def rowOf (x0 : S16x4096x128.Idx → EReal) (r : Fin 65536) : Fin 128 → EReal :=
  fun k => x0 (ix3 (⟨r.val / 4096, by omega⟩ : Fin 16) (⟨r.val % 4096, by omega⟩ : Fin 4096) k)

/-- The normalised bank at (j, k). -/
theorem bank_apply (x1 : S64x128.Idx → EReal) (j : Fin 64) (k : Fin 128) :
    val_main_v16 (F := Ideal) x1 (ix2 j k) = bankN (bankOf x1) j k := by
  rw [val_main_v16_apply, val_main_v15_apply, val_main_v14_apply, val_main_v12_apply, val_main_v11_apply,
    val_main_v10_apply, val_main_v13_apply, val_main_cst_2_apply, val_main_cst_1_apply]
  simp only [val_main_v9_apply]
  have hi : ∀ k', idx_main_v10 (idx_main_v11 (idx_main_v15 (ix2 j k))) k' = ix2 j k' := fun k' =>
    funext fun a => by match a with | ⟨0, _⟩ => rfl | ⟨1, _⟩ => rfl
  simp only [hi, Ideal.hostDivf_def, Ideal.maximumf_def, Ideal.hostUnary_sqrt_def, Ideal.ofBits_def, Ideal.mulf_def,
    Ideal.ofBits_zero_f32, zero_add]
  rfl

/-- The normalised features of row `r` at `k`. -/
theorem feat_apply (x0 : S16x4096x128.Idx → EReal) (r : Fin 65536) (k : Fin 128) :
    val_main_v8 (F := Ideal) x0 (ix2 r k) = refFeat (rowOf x0 r) k := by
  have hr := r.isLt
  have hk := k.isLt
  have h8 : idx_main_v8 (ix2 r k)
      = ix3 (⟨r.val / 4096, by omega⟩ : Fin 16) (⟨r.val % 4096, by omega⟩ : Fin 4096) k :=
    funext fun a => Fin.ext (by
      match a with
      | ⟨0, _⟩ => show (r.val * 128 + k.val) / 524288 = r.val / 4096; omega
      | ⟨1, _⟩ => show (r.val * 128 + k.val) / 128 % 4096 = r.val % 4096; omega
      | ⟨2, _⟩ => show (r.val * 128 + k.val) % 128 = k.val; omega)
  rw [val_main_v8_apply, h8, val_main_v7_apply, val_main_v6_apply, val_main_v5_apply, val_main_v3_apply,
    val_main_v2_apply, val_main_v1_apply, val_main_v4_apply, val_main_cst_0_apply, val_main_cst_apply]
  simp only [val_main_v0_apply]
  have hi : ∀ k', idx_main_v1 (idx_main_v2 (idx_main_v6
      (ix3 (⟨r.val / 4096, by omega⟩ : Fin 16) (⟨r.val % 4096, by omega⟩ : Fin 4096) k))) k'
      = ix3 (⟨r.val / 4096, by omega⟩ : Fin 16) (⟨r.val % 4096, by omega⟩ : Fin 4096) k' := fun k' =>
    funext fun a => by match a with | ⟨0, _⟩ => rfl | ⟨1, _⟩ => rfl | ⟨2, _⟩ => rfl
  simp only [hi, Ideal.hostDivf_def, Ideal.maximumf_def, Ideal.hostUnary_sqrt_def, Ideal.ofBits_def, Ideal.mulf_def,
    Ideal.ofBits_zero_f32, zero_add]
  rfl

/-- The score of row `r` against bank row `j`. -/
theorem sim_apply (x0 : S16x4096x128.Idx → EReal) (x1 : S64x128.Idx → EReal) (r : Fin 65536) (j : Fin 64) :
    val_main_v20 (F := Ideal) x0 x1 (ix2 r j) = refSim (rowOf x0 r) (bankOf x1) j := by
  rw [val_main_v20_apply, val_main_v18_apply, val_main_v19_apply, val_main_cst_3_apply]
  have hl : ∀ k, lidx_main_v18 (ix2 r j) k = ix2 r k := fun k =>
    funext fun a => by match a with | ⟨0, _⟩ => rfl | ⟨1, _⟩ => rfl
  have hr : ∀ k, idx_main_v17 (ridx_main_v18 (ix2 r j) k) = ix2 j k := fun k =>
    funext fun a => by match a with | ⟨0, _⟩ => rfl | ⟨1, _⟩ => rfl
  simp only [val_main_v17_apply, hl, hr, feat_apply, bank_apply, Ideal.hostDivf_def, Ideal.ofBits_def]
  rfl

/-- The softmax shift of row `r`: its largest score, folded from −∞. -/
theorem max_apply (x0 : S16x4096x128.Idx → EReal) (x1 : S64x128.Idx → EReal) (r : Fin 65536) :
    val_main_v23 (F := Ideal) x0 x1 (ix1 r) = refMax (rowOf x0 r) (bankOf x1) := by
  have h : S65536x64.Reduces [1] S65536 := by decide
  rw [val_main_v23_apply, val_main_v22_apply, val_main_cst_5_apply]
  unfold val_main_v21
  rw [Host.reduce_eq_fold_single FloatOps.maximumf _ _ Gen.reducesTo_S65536x64_S65536_d1 h Gen.h_S_, val_main_cst_4_apply]
  have hf : (val_main_v20 (F := Ideal) x0 x1 ∘ h.lift (ix1 r)) = refSim (rowOf x0 r) (bankOf x1) :=
    funext fun k => by
      have hl : h.lift (ix1 r) k = ix2 r (⟨k.val, k.isLt⟩ : Fin 64) := by
        funext c; apply Fin.ext
        fin_cases c <;> rfl
      show val_main_v20 (F := Ideal) x0 x1 (h.lift (ix1 r) k) = _
      rw [hl, sim_apply]
      rfl
  rw [hf]
  simp only [Ideal.ofBits_def, Cert.Consts.ofBits_neg_inf]
  rfl

/-- The softmax weight of row `r` on bank row `j`. -/
theorem attn_apply (x0 : S16x4096x128.Idx → EReal) (x1 : S64x128.Idx → EReal) (r : Fin 65536) (j : Fin 64) :
    val_main_v31 (F := Ideal) x0 x1 (ix2 r j)
      = Ideal.div (Ideal.exp (refSim (rowOf x0 r) (bankOf x1) j - refMax (rowOf x0 r) (bankOf x1)))
          (∑ j', Ideal.exp (refSim (rowOf x0 r) (bankOf x1) j' - refMax (rowOf x0 r) (bankOf x1))) := by
  rw [val_main_v31_apply, val_main_v30_apply, val_main_v29_apply, val_main_v28_apply, val_main_cst_6_apply]
  simp only [val_main_v27_apply, val_main_v26_apply, val_main_v25_apply, val_main_v24_apply]
  have h1 : ∀ j', idx_main_v24 (idx_main_v25 (ix2 r j')) = ix1 r := fun j' =>
    funext fun a => by match a with | ⟨0, _⟩ => rfl
  have h2 : ∀ k, idx_main_v28 (idx_main_v29 (idx_main_v30 (ix2 r j))) k = ix2 r k := fun k =>
    funext fun a => by match a with | ⟨0, _⟩ => rfl | ⟨1, _⟩ => rfl
  simp only [h2, h1, sim_apply, max_apply, Ideal.hostDivf_def, Ideal.hostUnary_exp_def, Ideal.subf_def, Ideal.ofBits_def,
    Ideal.ofBits_zero_f32, zero_add]

/-- THE REFERENCE AT (b, s, d): its row function of token (b, s)'s features and the bank. -/
theorem ref_apply (x0 : S16x4096x128.Idx → EReal) (x1 : S64x128.Idx → EReal) (b : Fin 16) (s : Fin 4096) (d : Fin 128) :
    val_main_v34 (F := Ideal) x0 x1 (ix3 b s d) = refRow (fun k => x0 (ix3 b s k)) (bankOf x1) d := by
  have hb := b.isLt
  have hs := s.isLt
  have hd := d.isLt
  have h34 : idx_main_v34 (ix3 b s d) = ix2 (⟨b.val * 4096 + s.val, by omega⟩ : Fin 65536) d :=
    funext fun a => Fin.ext (by
      match a with
      | ⟨0, _⟩ => show ((b.val * 4096 + s.val) * 128 + d.val) / 128 = b.val * 4096 + s.val; omega
      | ⟨1, _⟩ => show ((b.val * 4096 + s.val) * 128 + d.val) % 128 = d.val; omega)
  have hrow : rowOf x0 (⟨b.val * 4096 + s.val, by omega⟩ : Fin 65536) = fun k => x0 (ix3 b s k) :=
    funext fun k => congrArg x0 (funext fun a => Fin.ext (by
      match a with
      | ⟨0, _⟩ => show (b.val * 4096 + s.val) / 4096 = b.val; omega
      | ⟨1, _⟩ => show (b.val * 4096 + s.val) % 4096 = s.val; omega
      | ⟨2, _⟩ => rfl))
  rw [val_main_v34_apply, h34, val_main_v33_apply, val_main_v32_apply, feat_apply]
  have hl : ∀ k, lidx_main_v32 (ix2 (⟨b.val * 4096 + s.val, by omega⟩ : Fin 65536) d) k
      = ix2 (⟨b.val * 4096 + s.val, by omega⟩ : Fin 65536) k := fun k =>
    funext fun a => by match a with | ⟨0, _⟩ => rfl | ⟨1, _⟩ => rfl
  have hr : ∀ k, ridx_main_v32 (ix2 (⟨b.val * 4096 + s.val, by omega⟩ : Fin 65536) d) k = ix2 k d := fun k =>
    funext fun a => by match a with | ⟨0, _⟩ => rfl | ⟨1, _⟩ => rfl
  simp only [hl, hr, attn_apply, bank_apply, hrow, Ideal.addf_def]
  rfl

end Cert.RefRead

end
-- ==== Proof.KerRead.lean ====
/-
  The kernel body's one stored value read at one index of its block: token (p, q) of the block, feature d.

  The body flattens its 4 × 4096 tokens to 16384 rows, row r = p · 4096 + q, and computes with whole matrices: the
  normalised bank (64 × 128), the reciprocal norms (a product with an all-ones matrix, so the sum of squares arrives in
  every column), the scores (a product with the transposed, rescaled bank, times the first 64 columns of the reciprocal
  norms), the softmax weights, and the result x · r + weights × bank. Read at (r, d), stage by stage, this is the
  kernel's row function (Rows.lean) of row r's 128 features and the bank.
-/
import proofs.«150172_g85598698209303_cont_9to1_m_192_22_alg».proof.Proof.Gen.KernelIdeal.Skeleton
import proofs.«150172_g85598698209303_cont_9to1_m_192_22_alg».proof.Proof.Rows
import Idealize.ShloMosaic.Lib.Pipeline.Value
import Idealize.ShloMosaic.Lib.ValueIdx
import Idealize.ShloMosaic.PureOps.Ideal.Laws

noncomputable section

namespace Cert.KerRead

open Cert.KernelIdeal Cert.KernelIdeal.Gen Idealize.ShloMosaic Idealize.ShloMosaic.ValueIdx Cert.Rows

/-! ## The three matrix products, each into a zero accumulator: plain sums over the contracted coordinate -/

theorem lhs_sq_0 (i : S16384x128.Idx) (q : dot_S16384x128_S128x128_S16384x128_1_0_0_1_n_n.contr.Idx) :
    (dot_S16384x128_S128x128_S16384x128_1_0_0_1_n_n.lhsIdx i q 0).val = (i 0).val := by
  unfold DotDims.lhsIdx
  rw [dif_neg (show ¬(0 : Fin S16384x128.rank) ∈ dot_S16384x128_S128x128_S16384x128_1_0_0_1_n_n.lhsBatch by decide),
    dif_pos (show (0 : Fin S16384x128.rank) ∈ dot_S16384x128_S128x128_S16384x128_1_0_0_1_n_n.lhsNonContracting by decide)]
  rfl
theorem lhs_sq_1 (i : S16384x128.Idx) (q : dot_S16384x128_S128x128_S16384x128_1_0_0_1_n_n.contr.Idx) :
    (dot_S16384x128_S128x128_S16384x128_1_0_0_1_n_n.lhsIdx i q 1).val = (q ⟨0, by decide⟩).val :=
  dot_S16384x128_S128x128_S16384x128_1_0_0_1_n_n.lhsIdx_val_of_single rfl i q
theorem rhs_sq_0 (i : S16384x128.Idx) (q : dot_S16384x128_S128x128_S16384x128_1_0_0_1_n_n.contr.Idx) :
    (dot_S16384x128_S128x128_S16384x128_1_0_0_1_n_n.rhsIdx i q 0).val = (q ⟨0, by decide⟩).val :=
  dot_S16384x128_S128x128_S16384x128_1_0_0_1_n_n.rhsIdx_val_of_single rfl i q
theorem rhs_sq_1 (i : S16384x128.Idx) (q : dot_S16384x128_S128x128_S16384x128_1_0_0_1_n_n.contr.Idx) :
    (dot_S16384x128_S128x128_S16384x128_1_0_0_1_n_n.rhsIdx i q 1).val = (i 1).val := by
  unfold DotDims.rhsIdx
  rw [dif_neg (show ¬(1 : Fin S128x128.rank) ∈ dot_S16384x128_S128x128_S16384x128_1_0_0_1_n_n.rhsBatch by decide),
    dif_pos (show (1 : Fin S128x128.rank) ∈ dot_S16384x128_S128x128_S16384x128_1_0_0_1_n_n.rhsNonContracting by decide)]
  rfl

/-- [16384, 128] × [128, 128]: entry (r, d) is ∑_k l(r, k) · m(k, d). -/
theorem matmul_sq_apply (l : FVec Ideal S16384x128 .f32) (m : FVec Ideal S128x128 .f32) (r : Fin 16384) (d : Fin 128) :
    matmul dot_S16384x128_S128x128_S16384x128_1_0_0_1_n_n none l m (constant S16384x128 .f32 0x00000000#32) (ix2 r d)
      = ∑ k : Fin 128, l (ix2 r k) * m (ix2 k d) := by
  simp only [matmul]
  rw [Ideal.matmul_constant_zero_apply, ← Equiv.sum_comp (contrEquiv1 dot_S16384x128_S128x128_S16384x128_1_0_0_1_n_n 128 rfl rfl).symm]
  refine Finset.sum_congr rfl fun k _ => ?_
  have hk := contrEquiv1_symm_val dot_S16384x128_S128x128_S16384x128_1_0_0_1_n_n 128 rfl rfl k
  have el : dot_S16384x128_S128x128_S16384x128_1_0_0_1_n_n.lhsIdx (ix2 r d) ((contrEquiv1 dot_S16384x128_S128x128_S16384x128_1_0_0_1_n_n 128 rfl rfl).symm k) = ix2 r k :=
    funext fun a => Fin.ext (by
      match a with
      | ⟨0, _⟩ => exact lhs_sq_0 _ _
      | ⟨1, _⟩ => exact (lhs_sq_1 _ _).trans hk)
  have er : dot_S16384x128_S128x128_S16384x128_1_0_0_1_n_n.rhsIdx (ix2 r d) ((contrEquiv1 dot_S16384x128_S128x128_S16384x128_1_0_0_1_n_n 128 rfl rfl).symm k) = ix2 k d :=
    funext fun a => Fin.ext (by
      match a with
      | ⟨0, _⟩ => exact (rhs_sq_0 _ _).trans hk
      | ⟨1, _⟩ => exact rhs_sq_1 _ _)
  rw [el, er]

theorem lhs_sc_0 (i : S16384x64.Idx) (q : dot_S16384x128_S128x64_S16384x64_1_0_0_1_n_n.contr.Idx) :
    (dot_S16384x128_S128x64_S16384x64_1_0_0_1_n_n.lhsIdx i q 0).val = (i 0).val := by
  unfold DotDims.lhsIdx
  rw [dif_neg (show ¬(0 : Fin S16384x128.rank) ∈ dot_S16384x128_S128x64_S16384x64_1_0_0_1_n_n.lhsBatch by decide),
    dif_pos (show (0 : Fin S16384x128.rank) ∈ dot_S16384x128_S128x64_S16384x64_1_0_0_1_n_n.lhsNonContracting by decide)]
  rfl
theorem lhs_sc_1 (i : S16384x64.Idx) (q : dot_S16384x128_S128x64_S16384x64_1_0_0_1_n_n.contr.Idx) :
    (dot_S16384x128_S128x64_S16384x64_1_0_0_1_n_n.lhsIdx i q 1).val = (q ⟨0, by decide⟩).val :=
  dot_S16384x128_S128x64_S16384x64_1_0_0_1_n_n.lhsIdx_val_of_single rfl i q
theorem rhs_sc_0 (i : S16384x64.Idx) (q : dot_S16384x128_S128x64_S16384x64_1_0_0_1_n_n.contr.Idx) :
    (dot_S16384x128_S128x64_S16384x64_1_0_0_1_n_n.rhsIdx i q 0).val = (q ⟨0, by decide⟩).val :=
  dot_S16384x128_S128x64_S16384x64_1_0_0_1_n_n.rhsIdx_val_of_single rfl i q
theorem rhs_sc_1 (i : S16384x64.Idx) (q : dot_S16384x128_S128x64_S16384x64_1_0_0_1_n_n.contr.Idx) :
    (dot_S16384x128_S128x64_S16384x64_1_0_0_1_n_n.rhsIdx i q 1).val = (i 1).val := by
  unfold DotDims.rhsIdx
  rw [dif_neg (show ¬(1 : Fin S128x64.rank) ∈ dot_S16384x128_S128x64_S16384x64_1_0_0_1_n_n.rhsBatch by decide),
    dif_pos (show (1 : Fin S128x64.rank) ∈ dot_S16384x128_S128x64_S16384x64_1_0_0_1_n_n.rhsNonContracting by decide)]
  rfl

/-- [16384, 128] × [128, 64]: entry (r, j) is ∑_k l(r, k) · m(k, j). -/
theorem matmul_sc_apply (l : FVec Ideal S16384x128 .f32) (m : FVec Ideal S128x64 .f32) (r : Fin 16384) (j : Fin 64) :
    matmul dot_S16384x128_S128x64_S16384x64_1_0_0_1_n_n none l m (constant S16384x64 .f32 0x00000000#32) (ix2 r j)
      = ∑ k : Fin 128, l (ix2 r k) * m (ix2 k j) := by
  simp only [matmul]
  rw [Ideal.matmul_constant_zero_apply, ← Equiv.sum_comp (contrEquiv1 dot_S16384x128_S128x64_S16384x64_1_0_0_1_n_n 128 rfl rfl).symm]
  refine Finset.sum_congr rfl fun k _ => ?_
  have hk := contrEquiv1_symm_val dot_S16384x128_S128x64_S16384x64_1_0_0_1_n_n 128 rfl rfl k
  have el : dot_S16384x128_S128x64_S16384x64_1_0_0_1_n_n.lhsIdx (ix2 r j) ((contrEquiv1 dot_S16384x128_S128x64_S16384x64_1_0_0_1_n_n 128 rfl rfl).symm k) = ix2 r k :=
    funext fun a => Fin.ext (by
      match a with
      | ⟨0, _⟩ => exact lhs_sc_0 _ _
      | ⟨1, _⟩ => exact (lhs_sc_1 _ _).trans hk)
  have er : dot_S16384x128_S128x64_S16384x64_1_0_0_1_n_n.rhsIdx (ix2 r j) ((contrEquiv1 dot_S16384x128_S128x64_S16384x64_1_0_0_1_n_n 128 rfl rfl).symm k) = ix2 k j :=
    funext fun a => Fin.ext (by
      match a with
      | ⟨0, _⟩ => exact (rhs_sc_0 _ _).trans hk
      | ⟨1, _⟩ => exact rhs_sc_1 _ _)
  rw [el, er]

theorem lhs_rt_0 (i : S16384x128.Idx) (q : dot_S16384x64_S64x128_S16384x128_1_0_0_1_n_n.contr.Idx) :
    (dot_S16384x64_S64x128_S16384x128_1_0_0_1_n_n.lhsIdx i q 0).val = (i 0).val := by
  unfold DotDims.lhsIdx
  rw [dif_neg (show ¬(0 : Fin S16384x64.rank) ∈ dot_S16384x64_S64x128_S16384x128_1_0_0_1_n_n.lhsBatch by decide),
    dif_pos (show (0 : Fin S16384x64.rank) ∈ dot_S16384x64_S64x128_S16384x128_1_0_0_1_n_n.lhsNonContracting by decide)]
  rfl
theorem lhs_rt_1 (i : S16384x128.Idx) (q : dot_S16384x64_S64x128_S16384x128_1_0_0_1_n_n.contr.Idx) :
    (dot_S16384x64_S64x128_S16384x128_1_0_0_1_n_n.lhsIdx i q 1).val = (q ⟨0, by decide⟩).val :=
  dot_S16384x64_S64x128_S16384x128_1_0_0_1_n_n.lhsIdx_val_of_single rfl i q
theorem rhs_rt_0 (i : S16384x128.Idx) (q : dot_S16384x64_S64x128_S16384x128_1_0_0_1_n_n.contr.Idx) :
    (dot_S16384x64_S64x128_S16384x128_1_0_0_1_n_n.rhsIdx i q 0).val = (q ⟨0, by decide⟩).val :=
  dot_S16384x64_S64x128_S16384x128_1_0_0_1_n_n.rhsIdx_val_of_single rfl i q
theorem rhs_rt_1 (i : S16384x128.Idx) (q : dot_S16384x64_S64x128_S16384x128_1_0_0_1_n_n.contr.Idx) :
    (dot_S16384x64_S64x128_S16384x128_1_0_0_1_n_n.rhsIdx i q 1).val = (i 1).val := by
  unfold DotDims.rhsIdx
  rw [dif_neg (show ¬(1 : Fin S64x128.rank) ∈ dot_S16384x64_S64x128_S16384x128_1_0_0_1_n_n.rhsBatch by decide),
    dif_pos (show (1 : Fin S64x128.rank) ∈ dot_S16384x64_S64x128_S16384x128_1_0_0_1_n_n.rhsNonContracting by decide)]
  rfl

/-- [16384, 64] × [64, 128]: entry (r, d) is ∑_j l(r, j) · m(j, d). -/
theorem matmul_rt_apply (l : FVec Ideal S16384x64 .f32) (m : FVec Ideal S64x128 .f32) (r : Fin 16384) (d : Fin 128) :
    matmul dot_S16384x64_S64x128_S16384x128_1_0_0_1_n_n none l m (constant S16384x128 .f32 0x00000000#32) (ix2 r d)
      = ∑ j : Fin 64, l (ix2 r j) * m (ix2 j d) := by
  simp only [matmul]
  rw [Ideal.matmul_constant_zero_apply, ← Equiv.sum_comp (contrEquiv1 dot_S16384x64_S64x128_S16384x128_1_0_0_1_n_n 64 rfl rfl).symm]
  refine Finset.sum_congr rfl fun k _ => ?_
  have hk := contrEquiv1_symm_val dot_S16384x64_S64x128_S16384x128_1_0_0_1_n_n 64 rfl rfl k
  have el : dot_S16384x64_S64x128_S16384x128_1_0_0_1_n_n.lhsIdx (ix2 r d) ((contrEquiv1 dot_S16384x64_S64x128_S16384x128_1_0_0_1_n_n 64 rfl rfl).symm k) = ix2 r k :=
    funext fun a => Fin.ext (by
      match a with
      | ⟨0, _⟩ => exact lhs_rt_0 _ _
      | ⟨1, _⟩ => exact (lhs_rt_1 _ _).trans hk)
  have er : dot_S16384x64_S64x128_S16384x128_1_0_0_1_n_n.rhsIdx (ix2 r d) ((contrEquiv1 dot_S16384x64_S64x128_S16384x128_1_0_0_1_n_n 64 rfl rfl).symm k) = ix2 k d :=
    funext fun a => Fin.ext (by
      match a with
      | ⟨0, _⟩ => exact (rhs_rt_0 _ _).trans hk
      | ⟨1, _⟩ => exact rhs_rt_1 _ _)
  rw [el, er]

/-! ## The layout operations of the body, each read at an index -/

section Layout

/-- Pointwise functions at an index. -/
theorem sqrt_apply {s : Shape} (a : FVec Ideal s .f32) (i : s.Idx) : sqrt a i = Ideal.sqrt (a i) := rfl
theorem rsqrt_apply {s : Shape} (a : FVec Ideal s .f32) (i : s.Idx) : rsqrt a i = Ideal.rsqrt (a i) := rfl
theorem exp_apply {s : Shape} (a : FVec Ideal s .f32) (i : s.Idx) : exp a i = Ideal.exp (a i) := rfl

/-- The block's 4 × 4096 tokens as 16384 rows: row r is token (r / 4096, r % 4096). -/
theorem rows_apply (w : FVec Ideal S4x4096x128 .f32) (r : Fin 16384) (k : Fin 128) :
    shapeCast S16384x128 w shapeCasts_S4x4096x128_S16384x128 (ix2 r k)
      = w (ix3 (⟨r.val / 4096, by omega⟩ : Fin 4) (⟨r.val % 4096, by omega⟩ : Fin 4096) k) := by
  refine shapeCast_apply w _ (ix2 r k) _ ?_
  rewrite [Shape.rowMajor_val_three, Shape.rowMajor_val_two]
  have hr := r.isLt
  have hk := k.isLt
  show (r.val / 4096 * 4096 + r.val % 4096) * 128 + k.val = r.val * 128 + k.val
  omega

/-- ... and back: token (p, q) is row p · 4096 + q. -/
theorem tokens_apply (w : FVec Ideal S16384x128 .f32) (p : Fin 4) (q : Fin 4096) (d : Fin 128) :
    shapeCast S4x4096x128 w shapeCasts_S16384x128_S4x4096x128 (ix3 p q d)
      = w (ix2 (⟨p.val * 4096 + q.val, by omega⟩ : Fin 16384) d) := by
  refine shapeCast_apply w _ (ix3 p q d) _ ?_
  rewrite [Shape.rowMajor_val_three, Shape.rowMajor_val_two]
  rfl

/-- A 64-vector viewed as a column. -/
theorem col64_apply (w : FVec Ideal S64 .f32) (j : Fin 64) (z : Fin 1) :
    shapeCast S64x1 w shapeCasts_S64_S64x1 (ix2 j z) = w (ix1 j) := by
  refine shapeCast_apply w _ (ix2 j z) _ ?_
  rewrite [Shape.rowMajor_val_one, Shape.rowMajor_val_two]
  have hz := z.isLt
  show j.val = j.val * 1 + z.val
  omega

/-- A 64-column spread over 128 lanes. -/
theorem spread64_apply (w : FVec Ideal S64x1 .f32) (j : Fin 64) (k : Fin 128) :
    broadcastTo S64x128 w broadcasts_S64x1_S64x128 (ix2 j k) = w (ix2 j (0 : Fin 1)) :=
  broadcastTo_apply w _ (ix2 j k) (ix2 j (0 : Fin 1)) (fun a => match a with
    | ⟨0, _⟩ => by show j.val = if (64 : Nat) = 1 then 0 else j.val; rw [if_neg (by decide)]
    | ⟨1, _⟩ => by show 0 = if (1 : Nat) = 1 then 0 else k.val; rw [if_pos rfl])

/-- A lane sum of a 64 × 128 matrix. -/
theorem laneSum64_apply (w : FVec Ideal S64x128 .f32) (hacc : (0x00000000#32 : BitVec 32) = 0x00000000#32) (j : Fin 64) :
    multiReduction .add [1] S64 w 0x00000000#32 reduces_S64x128_S64 (.inl rfl) hacc (ix1 j) = ∑ k : Fin 128, w (ix2 j k) := by
  refine (Ideal.multiReduction_add_single w 0x00000000#32 reduces_S64x128_S64 (.inl rfl) hacc (ix1 j)).trans ?_
  refine Finset.sum_congr rfl fun k _ => congrArg w ?_
  funext c; apply Fin.ext
  fin_cases c <;> rfl

/-- The bank transposed. -/
theorem transpose_bank_apply (w : FVec Ideal S64x128 .f32) (k : Fin 128) (j : Fin 64) :
    transpose S128x64 [1, 0] w transposes_S64x128_p1_0_S128x64 (ix2 k j) = w (ix2 j k) :=
  transpose_apply [1, 0] w _ (ix2 k j) (ix2 j k) (fun b => match b with
    | ⟨0, _⟩ => rfl
    | ⟨1, _⟩ => rfl)

/-- The first 64 of 128 columns. -/
theorem slice64_apply (w : FVec Ideal S16384x128 .f32) (r : Fin 16384) (j : Fin 64) :
    extractStridedSlice S16384x64 ![0, 0] w slices_S16384x128_o0_0_S16384x64 (ix2 r j)
      = w (ix2 r (⟨j.val, by omega⟩ : Fin 128)) :=
  extractStridedSlice_apply _ w _ (ix2 r j) _ (fun a => match a with
    | ⟨0, _⟩ => by show r.val = 0 + r.val; omega
    | ⟨1, _⟩ => by show j.val = 0 + j.val; omega)

/-- A 16384-vector viewed as a column. -/
theorem col16384_apply (w : FVec Ideal S16384 .f32) (r : Fin 16384) (z : Fin 1) :
    shapeCast S16384x1 w shapeCasts_S16384_S16384x1 (ix2 r z) = w (ix1 r) := by
  refine shapeCast_apply w _ (ix2 r z) _ ?_
  rewrite [Shape.rowMajor_val_one, Shape.rowMajor_val_two]
  have hz := z.isLt
  show r.val = r.val * 1 + z.val
  omega

/-- A 16384-column spread over 64 lanes. -/
theorem spread16384_apply (w : FVec Ideal S16384x1 .f32) (r : Fin 16384) (j : Fin 64) :
    broadcastTo S16384x64 w broadcasts_S16384x1_S16384x64 (ix2 r j) = w (ix2 r (0 : Fin 1)) :=
  broadcastTo_apply w _ (ix2 r j) (ix2 r (0 : Fin 1)) (fun a => match a with
    | ⟨0, _⟩ => by show r.val = if (16384 : Nat) = 1 then 0 else r.val; rw [if_neg (by decide)]
    | ⟨1, _⟩ => by show 0 = if (1 : Nat) = 1 then 0 else j.val; rw [if_pos rfl])

/-- A lane sum of a 16384 × 64 matrix. -/
theorem laneSum16384_apply (w : FVec Ideal S16384x64 .f32) (hacc : (0x00000000#32 : BitVec 32) = 0x00000000#32) (r : Fin 16384) :
    multiReduction .add [1] S16384 w 0x00000000#32 reduces_S16384x64_S16384 (.inl rfl) hacc (ix1 r) = ∑ j : Fin 64, w (ix2 r j) := by
  refine (Ideal.multiReduction_add_single w 0x00000000#32 reduces_S16384x64_S16384 (.inl rfl) hacc (ix1 r)).trans ?_
  refine Finset.sum_congr rfl fun k _ => congrArg w ?_
  funext c; apply Fin.ext
  fin_cases c <;> rfl

end Layout

/-! ## The body's stages, and each at an index -/

section Stages
variable (v0 : Vec Ideal S4x4096x128 .f32) (v2 : Vec Ideal S64x128 .f32)

/-- The kernel's folded ε², as the certificate's table names it. -/
abbrev epsSq : EReal := Named.named (F := Ideal) κ "eps_squared" (φ := .f32) 0x179ABE15#32
/-- The kernel's folded 1/T, as the certificate's table names it. -/
abbrev invTemp : EReal := Named.named (F := Ideal) κ "inv_temperature" (φ := .f32) 0x41649249#32

/-- The block's tokens as 16384 rows. -/
def tokV : FVec Ideal S16384x128 .f32 := shapeCast S16384x128 v0 shapeCasts_S4x4096x128_S16384x128
/-- The normalised bank. -/
def bankV : FVec Ideal S64x128 .f32 :=
  divf v2 (broadcastTo S64x128 (maximumf (sqrt (shapeCast S64x1
    (multiReduction .add [1] S64 (mulf v2 v2) 0x00000000#32 reduces_S64x128_S64 (.inl rfl) rfl) shapeCasts_S64_S64x1))
    (broadcast S64x1 (Scalar.ofBits .f32 0x2B8CBCCC#32))) broadcasts_S64x1_S64x128)
/-- The reciprocal norms, one per row, in every column. -/
def invV : FVec Ideal S16384x128 .f32 :=
  rsqrt (maximumf (matmul dot_S16384x128_S128x128_S16384x128_1_0_0_1_n_n none (mulf (tokV v0) (tokV v0))
    (broadcast S128x128 (Scalar.ofBits .f32 0x3F800000#32)) (constant S16384x128 .f32 0x00000000#32))
    (broadcast S16384x128 (Named.named κ "eps_squared" 0x179ABE15#32)))
/-- The scores. -/
def simV : FVec Ideal S16384x64 .f32 :=
  mulf (matmul dot_S16384x128_S128x64_S16384x64_1_0_0_1_n_n none (tokV v0)
      (mulf (transpose S128x64 [1, 0] (bankV v2) transposes_S64x128_p1_0_S128x64)
        (broadcast S128x64 (Named.named κ "inv_temperature" 0x41649249#32)))
      (constant S16384x64 .f32 0x00000000#32))
    (extractStridedSlice S16384x64 ![0, 0] (invV v0) slices_S16384x128_o0_0_S16384x64)
/-- Their exponentials. -/
def expV : FVec Ideal S16384x64 .f32 := exp (simV v0 v2)
/-- The softmax weights. -/
def attnV : FVec Ideal S16384x64 .f32 :=
  divf (expV v0 v2) (broadcastTo S16384x64 (shapeCast S16384x1
    (multiReduction .add [1] S16384 (expV v0 v2) 0x00000000#32 reduces_S16384x64_S16384 (.inl rfl) rfl)
    shapeCasts_S16384_S16384x1) broadcasts_S16384x1_S16384x64)
/-- The rows the body stores. -/
def outV : FVec Ideal S16384x128 .f32 :=
  addf (mulf (tokV v0) (invV v0))
    (matmul dot_S16384x64_S64x128_S16384x128_1_0_0_1_n_n none (attnV v0 v2) (bankV v2) (constant S16384x128 .f32 0x00000000#32))

/-- The stored value is these stages composed. -/
theorem pay_eq : k0_pay1 (F := Ideal) v0 v2 = shapeCast S4x4096x128 (outV v0 v2) shapeCasts_S16384x128_S4x4096x128 := rfl

/-- Row `r` of the block: the 128 features of token (r / 4096, r % 4096). -/
def rowK (r : Fin 16384) : Fin 128 → EReal :=
  fun k => v0 (ix3 (⟨r.val / 4096, by omega⟩ : Fin 4) (⟨r.val % 4096, by omega⟩ : Fin 4096) k)
/-- The bank by its two coordinates. -/
def bankK : Fin 64 → Fin 128 → EReal := fun j k => v2 (ix2 j k)

theorem tokV_apply (r : Fin 16384) (k : Fin 128) : tokV v0 (ix2 r k) = rowK v0 r k := rows_apply v0 r k

theorem bankV_apply (j : Fin 64) (k : Fin 128) : bankV v2 (ix2 j k) = bankN (bankK v2) j k := by
  unfold bankV
  rw [divf_apply, spread64_apply, maximumf_apply, sqrt_apply, col64_apply, laneSum64_apply, broadcast_apply]
  simp only [mulf_apply]
  rfl

theorem invV_apply (r : Fin 16384) (d : Fin 128) : invV v0 (ix2 r d) = kerInv (rowK v0 r) epsSq := by
  unfold invV
  rw [rsqrt_apply, maximumf_apply, matmul_sq_apply, broadcast_apply]
  simp only [mulf_apply, tokV_apply, broadcast_apply]
  rfl

theorem simV_apply (r : Fin 16384) (j : Fin 64) :
    simV v0 v2 (ix2 r j) = kerSim (rowK v0 r) (bankK v2) invTemp epsSq j := by
  unfold simV
  rw [mulf_apply, matmul_sc_apply, slice64_apply, invV_apply]
  unfold kerSim
  congr 1
  refine Finset.sum_congr rfl fun k _ => ?_
  rw [tokV_apply, mulf_apply, transpose_bank_apply, bankV_apply, broadcast_apply]

theorem attnV_apply (r : Fin 16384) (j : Fin 64) :
    attnV v0 v2 (ix2 r j)
      = Ideal.div (Ideal.exp (kerSim (rowK v0 r) (bankK v2) invTemp epsSq j))
          (∑ j', Ideal.exp (kerSim (rowK v0 r) (bankK v2) invTemp epsSq j')) := by
  unfold attnV
  rw [divf_apply, spread16384_apply, col16384_apply, laneSum16384_apply]
  unfold expV
  simp only [exp_apply, simV_apply]

theorem outV_apply (r : Fin 16384) (d : Fin 128) :
    outV v0 v2 (ix2 r d) = kerRow (rowK v0 r) (bankK v2) invTemp epsSq d := by
  unfold outV
  rw [addf_apply, mulf_apply, matmul_rt_apply, tokV_apply, invV_apply]
  simp only [attnV_apply, bankV_apply]
  rfl

/-- THE STORED VALUE AT (p, q, d): the kernel's row function of token (p, q)'s features and the bank. -/
theorem pay_apply (p : Fin 4) (q : Fin 4096) (d : Fin 128) :
    k0_pay1 (F := Ideal) v0 v2 (ix3 p q d)
      = kerRow (fun k => v0 (ix3 p q k)) (bankK v2) invTemp epsSq d := by
  have hp := p.isLt
  have hq := q.isLt
  have hrow : rowK v0 (⟨p.val * 4096 + q.val, by omega⟩ : Fin 16384) = fun k => v0 (ix3 p q k) :=
    funext fun k => congrArg v0 (funext fun a => Fin.ext (by
      match a with
      | ⟨0, _⟩ => show (p.val * 4096 + q.val) / 4096 = p.val; omega
      | ⟨1, _⟩ => show (p.val * 4096 + q.val) % 4096 = q.val; omega
      | ⟨2, _⟩ => rfl))
  rw [pay_eq, tokens_apply, outV_apply, hrow]

end Stages

end Cert.KerRead

end
-- ==== Proof.Whole.lean ====
/-
  From the kernel's blocks to its whole result array.

  The grid has 4 points; point t stages tokens [4t, 4t + 4) × [0, 4096) of the features (all 128 columns) and the whole
  bank, and writes back the same token range of the result. So what point t writes back is block t of ONE function of
  the two argument arrays — at (b, s, d) the kernel's row function of token (b, s)'s features and the bank, at d — and
  the four blocks tile the array: after the run the result array is that function.
-/
import proofs.«150172_g85598698209303_cont_9to1_m_192_22_alg».proof.Proof.Gen.KernelIdeal.Value
import proofs.«150172_g85598698209303_cont_9to1_m_192_22_alg».proof.Proof.KerRead

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.Rows Cert.KerRead
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-- The result array as one function of the argument arrays: at (b, s, d), the kernel's row of token (b, s) at d. -/
def result (X : S16x4096x128.Idx → EReal) (B : S64x128.Idx → EReal) : S16x4096x128.Idx → EReal :=
  fun i => kerRow (fun k => X (ix3 (⟨(i 0).val, (i 0).isLt⟩ : Fin 16) (⟨(i 1).val, (i 1).isLt⟩ : Fin 4096) k))
    (fun j k => B (ix2 j k)) invTemp epsSq (⟨(i 2).val, (i 2).isLt⟩ : Fin 128)

/-- The printed index maps over the 4 points: the features' and the result's blocks move together along the batch
    axis and sit at 0 on the other two; the bank's block is the whole bank. -/
theorem index_facts : ∀ t : Fin cfg0.N, win0_0.index t (0 : Fin 3) = win0_2.index t (0 : Fin 3)
    ∧ win0_0.index t (1 : Fin 3) = 0 ∧ win0_0.index t (2 : Fin 3) = 0
    ∧ win0_2.index t (1 : Fin 3) = 0 ∧ win0_2.index t (2 : Fin 3) = 0
    ∧ win0_1.index t (0 : Fin 2) = 0 ∧ win0_1.index t (1 : Fin 2) = 0
    ∧ win0_2.index t (0 : Fin 3) ≤ 3 :=
  (by decide +kernel : ∀ t : Fin grid0.N, _)

/-- Every block of four batches is some point's. -/
theorem index_onto : ∀ q : Fin 4, ∃ t : Fin cfg0.N, win0_2.index t = ![q.val, 0, 0] :=
  (by decide +kernel : ∀ q : Fin 4, ∃ t : Fin grid0.N, win0_2.index t = ![q.val, 0, 0])

/-- WHAT POINT `t` WRITES BACK is block `t` of `result` of the argument arrays. -/
theorem flushed_eq (c : Dev nD) (t : Fin cfg0.N) :
    (dats m 0 c).flushed 2 t
      = ((cfg0.win 2).blk t).view.read (Elt Ideal) (result (V m c main_arg0) (V m c main_arg1)) := by
  rw [flushed2]
  unfold out0_2
  rw [View.canon_unit_zero zero3]
  simp only [View.ld_unit_zero (S := S4x4096x128) zero3, View.ld_unit_zero (S := S64x128) zero2]
  obtain ⟨e0, e1, e2, e3, e4, e5, e6, e7⟩ := index_facts t
  funext y
  obtain ⟨p, q, d, rfl⟩ : ∃ (p : Fin 4) (q : Fin 4096) (d : Fin 128), y = ix3 p q d := ⟨y 0, y 1, y 2, eq_ix3 y⟩
  have hp := p.isLt
  have hq := q.isLt
  have hd := d.isLt
  show k0_pay1 (F := Ideal) (iblk m c 0 t) (iblk m c 1 t) (ix3 p q d)
    = result (V m c main_arg0) (V m c main_arg1) (((cfg0.win 2).blk t).view.emb (ix3 p q d))
  refine (pay_apply (iblk m c 0 t) (iblk m c 1 t) p q d).trans ?_
  unfold result
  have hx : (fun k : Fin 128 => iblk m c 0 t (ix3 p q k))
      = fun k : Fin 128 => V m c main_arg0
          (ix3 (⟨((((cfg0.win 2).blk t).view.emb (ix3 p q d)) 0).val, ((((cfg0.win 2).blk t).view.emb (ix3 p q d)) 0).isLt⟩ : Fin 16)
            (⟨((((cfg0.win 2).blk t).view.emb (ix3 p q d)) 1).val, ((((cfg0.win 2).blk t).view.emb (ix3 p q d)) 1).isLt⟩ : Fin 4096) k) :=
    funext fun k => by
      show V m c main_arg0 (((cfg0.win 0).blk t).view.emb (ix3 p q k)) = _
      refine congrArg (V m c main_arg0) (funext fun a => Fin.ext ?_)
      match a with
      | ⟨0, _⟩ => show win0_0.index t (0 : Fin 3) * 4 + 1 * p.val = win0_2.index t (0 : Fin 3) * 4 + 1 * p.val; omega
      | ⟨1, _⟩ => show win0_0.index t (1 : Fin 3) * 4096 + 1 * q.val = win0_2.index t (1 : Fin 3) * 4096 + 1 * q.val; omega
      | ⟨2, _⟩ => show win0_0.index t (2 : Fin 3) * 128 + 1 * k.val = k.val; omega
  have hb : bankK (iblk m c 1 t) = fun (j : Fin 64) (k : Fin 128) => V m c main_arg1 (ix2 j k) :=
    funext fun j => funext fun k => by
      show V m c main_arg1 (((cfg0.win 1).blk t).view.emb (ix2 j k)) = _
      refine congrArg (V m c main_arg1) (funext fun a => Fin.ext ?_)
      match a with
      | ⟨0, _⟩ => show win0_1.index t (0 : Fin 2) * 64 + 1 * j.val = j.val; omega
      | ⟨1, _⟩ => show win0_1.index t (1 : Fin 2) * 128 + 1 * k.val = k.val; omega
  have hd' : d = (⟨((((cfg0.win 2).blk t).view.emb (ix3 p q d)) 2).val, ((((cfg0.win 2).blk t).view.emb (ix3 p q d)) 2).isLt⟩ : Fin 128) :=
    Fin.ext (by show d.val = win0_2.index t (2 : Fin 3) * 128 + 1 * d.val; omega)
  rw [hx, hb]
  exact congrArg (kerRow _ _ invTemp epsSq) hd'

/-- An index of the array is in point `t`'s block iff each coordinate is in the block's range on its axis. -/
theorem mem_blk (t : Fin cfg0.N) (i : S16x4096x128.Idx) :
    i ∈ ((cfg0.win 2).blk t).view.set ↔ ∀ a : Fin 3, win0_2.index t a * S4x4096x128.size a ≤ (i a).val
      ∧ (i a).val < win0_2.index t a * S4x4096x128.size a + S4x4096x128.size a := by
  show i ∈ ((View.whole main_v0).slice (win0_2.rect t)).set ↔ _
  rw [View.set_slice_whole, Rect.mem_set_unit]
  exact Iff.rfl

/-- The four blocks tile the array: batch b lies in the block of point b / 4. -/
theorem cover (i : S16x4096x128.Idx) :
    ∃ t : Fin cfg0.N, (cfg0.win 2).flush t = true ∧ i ∈ ((cfg0.win 2).blk t).view.set := by
  have h0 : (i 0).val < 16 := (i 0).isLt
  have h1 : (i 1).val < 4096 := (i 1).isLt
  have h2 : (i 2).val < 128 := (i 2).isLt
  obtain ⟨t, ht⟩ := index_onto ⟨(i 0).val / 4, by omega⟩
  have q0 : win0_2.index t (0 : Fin 3) = (i 0).val / 4 := congrFun ht 0
  have q1 : win0_2.index t (1 : Fin 3) = 0 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 4 ≤ (i 0).val ∧ (i 0).val < win0_2.index t (0 : Fin 3) * 4 + 4; omega
  | ⟨1, _⟩ => show win0_2.index t (1 : Fin 3) * 4096 ≤ (i 1).val ∧ (i 1).val < win0_2.index t (1 : Fin 3) * 4096 + 4096; omega
  | ⟨2, _⟩ => show win0_2.index t (2 : Fin 3) * 128 ≤ (i 2).val ∧ (i 2).val < win0_2.index t (2 : Fin 3) * 128 + 128; omega

/-- THE RESULT ARRAY after the run is `result` of the argument arrays. -/
theorem final (c : Dev nD) :
    (dats m 0 c).arrAt 2 cfg0.N = result (m ((c : Thread nD τ).loc main_arg0)) (m ((c : Thread nD τ).loc main_arg1)) :=
  (dats m 0 c).arrAt_eq_of_cover 2 (result (V m c main_arg0) (V m c main_arg1)) (fun t _ => flushed_eq m c t) cover

/-- The kernel's run with its result array named. -/
theorem run : θ_run defs (onTc (τ := τ) (main (F := Ideal))) ⟨m, fun _ => 0, ρ⟩ fun r => ∀ c : Dev nD,
      r.2.mem ((c : Thread nD τ).loc main_v0)
        = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Whole

end
-- ==== Proof.Finite.lean ====
/-
  What the precondition says: every entry of both argument arrays is a real number.

  The printed predicate is (all |features| < +inf) and (all |bank| < +inf). Each `all` that is 1 had a 1 at every
  index, and |x| < +inf on the extended reals says x is neither infinity.
-/
import proofs.«150172_g85598698209303_cont_9to1_m_192_22_alg».proof.Pre_finite_inputs
import proofs.«150172_g85598698209303_cont_9to1_m_192_22_alg».proof.Proof.Gen.Pre_finite_inputs
import proofs.«150172_g85598698209303_cont_9to1_m_192_22_alg».proof.Proof.Consts
import Idealize.ShloMosaic.Lib.ReduceAll
import Idealize.ShloMosaic.Lib.ValueIdx

noncomputable section

namespace Cert.Finite

open Idealize.ShloMosaic Cert.Pre_finite_inputs

instance : Subsingleton S_.Idx := ⟨fun a b => funext fun d => d.elim0⟩

/-- |x| < +inf: x is a real. -/
theorem real_of_abs_lt (x : EReal) (h : Ideal.cmp .olt (max x (-x)) (Ideal.ofBits .f32 0x7F800000#32) = 1#1) :
    x ≠ ⊤ ∧ x ≠ ⊥ := by
  rw [Cert.Consts.ofBits_pos_inf] at h
  unfold Ideal.cmp at h
  have hlt : max x (-x) < ⊤ := by
    by_contra hn
    simp [hn] at h
  constructor
  · rintro rfl
    simp at hlt
  · rintro rfl
    simp at hlt

/-- Under the precondition every entry of the features and of the bank is a real. -/
theorem finite_of_pre (x0 : FVec Ideal S16x4096x128 .f32) (x1 : FVec Ideal S64x128 .f32)
    (h : Cert.Pre_finite_inputs.fn (F := Ideal) x0 x1 = fun _ => 1#1) :
    (∀ i, x0 i ≠ ⊤ ∧ x0 i ≠ ⊥) ∧ (∀ i, x1 i ≠ ⊤ ∧ x1 i ≠ ⊥) := by
  have h0 := congrFun h ValueIdx.ix0
  dsimp only [fn] at h0
  obtain ⟨ha, hb⟩ := IntOp.andi_eq_one.1 h0
  exact ⟨fun i => real_of_abs_lt (x0 i) (Host.reduce_andi_all _ _ _ _ _ ha i),
    fun i => real_of_abs_lt (x1 i) (Host.reduce_andi_all _ _ _ _ _ hb i)⟩

end Cert.Finite

end
-- ==== Proof.lean ====
/-
  A fused "normalise, attend over a small memory bank, add" kernel against its jnp reference, over the extended reals.

  For each of the 16 × 4096 tokens, with features x (128 of them) and the 64 × 128 bank B, both programs return
      x / max(‖x‖, ε) + softmax_j((x / max(‖x‖, ε)) · b_j / T) · b,        b_j = B_j / max(‖B_j‖, ε).
  The reference computes it as written, shifting the softmax by its largest score. The kernel takes the reciprocal
  norm as rsqrt(max(∑ x², ε²)) — the sum of squares by a product with an all-ones matrix —, multiplies the bank by 1/T
  before the score product and the scores by the reciprocal norm after it, and does not shift the softmax. Its two
  folded literals, ε · ε and 1 / T, are read as the exact square of the reference's ε and the exact reciprocal of the
  reference's T (the certificate's table); with that the two results are equal on all finite inputs:
    Rows.lean     the two row functions and their equality on reals (√ is monotone and √(ε²) = ε; finite sums
                  distribute; a softmax is invariant under a common shift);
    RefRead.lean  the reference's result at (b, s, d) is its row function of token (b, s);
    KerRead.lean  the kernel body's stored value at (p, q, d) is its row function of token (p, q) of the block;
    Whole.lean    the four blocks tile the result array;
    Finite.lean   the precondition makes every input entry a real.
-/
import proofs.«150172_g85598698209303_cont_9to1_m_192_22_alg».proof.Defs
import proofs.«150172_g85598698209303_cont_9to1_m_192_22_alg».proof.Proof.Gen.Kernel
import proofs.«150172_g85598698209303_cont_9to1_m_192_22_alg».proof.Proof.Gen.Kernel.Frame
import proofs.«150172_g85598698209303_cont_9to1_m_192_22_alg».proof.Proof.Gen.KernelIdeal
import proofs.«150172_g85598698209303_cont_9to1_m_192_22_alg».proof.Proof.Gen.KernelIdeal.Frame
import proofs.«150172_g85598698209303_cont_9to1_m_192_22_alg».proof.Proof.Gen.KernelIdeal.Value
import proofs.«150172_g85598698209303_cont_9to1_m_192_22_alg».proof.Proof.Gen.ReferenceIdeal
import proofs.«150172_g85598698209303_cont_9to1_m_192_22_alg».proof.Proof.Gen.ReferenceIdeal.Run
import proofs.«150172_g85598698209303_cont_9to1_m_192_22_alg».proof.Proof.Gen.ReferenceIdeal.Read
import proofs.«150172_g85598698209303_cont_9to1_m_192_22_alg».proof.Proof.Gen.Pre_finite_inputs
import proofs.«150172_g85598698209303_cont_9to1_m_192_22_alg».proof.Proof.Rows
import proofs.«150172_g85598698209303_cont_9to1_m_192_22_alg».proof.Proof.RefRead
import proofs.«150172_g85598698209303_cont_9to1_m_192_22_alg».proof.Proof.Whole
import proofs.«150172_g85598698209303_cont_9to1_m_192_22_alg».proof.Proof.Finite
import Idealize.ShloMosaic.Adequacy
import Idealize.ShloMosaic.Init

noncomputable section

namespace Cert.Proof

open Idealize.ShloMosaic Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The two named literals denote, at the ideal values, what the certificate's table gives them. -/
theorem preserves : Cert.preserves_Kernel_KernelIdeal :=
  ⟨IdealRules.named_const.statement Cert.KernelIdeal.κ "inv_temperature" .f32 0x41649249#32
      ((134217728 / 9395241 : ℝ) : EReal) rfl,
    IdealRules.named_const.statement Cert.KernelIdeal.κ "eps_squared" .f32 0x179ABE15#32
      ((5316911940649 / 5316911983139663491615228241121378304 : ℝ) : EReal) rfl⟩

/-- The kernel's result array (Whole.lean) and the reference's (its run, read at an index by RefRead.lean) are the two
    row functions of the same token and bank, equal on the finite inputs the precondition admits (Rows.lean). -/
theorem algebraic : Cert.algebraic_KernelIdeal_ReferenceIdeal := by
  intro m ρ m' ρ' hpre hagree
  refine ⟨fun c => Cert.KernelIdeal.Whole.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, (hagree c).1, (hagree c).2]
  obtain ⟨hx, hb⟩ := Cert.Finite.finite_of_pre _ _ (hpre c)
  funext i
  obtain ⟨b, s, d, rfl⟩ : ∃ (b : Fin 16) (s : Fin 4096) (d : Fin 128), i = ix3 b s d := ⟨i 0, i 1, i 2, eq_ix3 i⟩
  rw [Cert.RefRead.ref_apply]
  unfold Cert.KernelIdeal.Whole.result
  have hc : Cert.KerRead.invTemp = ((134217728 / 9395241 : ℝ) : EReal) :=
    IdealRules.named_const.ideal_named_scalar _ _ _ _ rfl
  have he : Cert.KerRead.epsSq = ((5316911940649 / 5316911983139663491615228241121378304 : ℝ) : EReal) :=
    IdealRules.named_const.ideal_named_scalar _ _ _ _ rfl
  rw [hc, he]
  exact (Cert.Rows.kerRow_eq_refRow _ _ (fun k => hx _) (fun j k => hb _) d).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
